-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x524288x128 : Shape := ⟨3, ![3, 524288, 128]⟩
abbrev S128x128 : Shape := ⟨2, ![128, 128]⟩
abbrev S128 : Shape := ⟨1, ![128]⟩
abbrev S_ : Shape := ⟨0, ![]⟩

class Facts : Prop where
  bcast_S_S3x524288x128 : S_.BroadcastsInDim S3x524288x128 (![] : Fin 0 → Fin S3x524288x128.rank)
  reducesTo_S3x524288x128_S_d0_1_2 : S3x524288x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S3x524288x128 .f32) (main_arg1 : FVec F S128x128 .f32) (main_arg2 : FVec F S128 .f32) : IVec S_ 1 :=
  let main_v0 : FVec F S3x524288x128 .f32 := Host.absf main_arg0
  let main_cst : FVec F S_ .f32 := constant S_ .f32 0x7F800000#32
  let main_v1 : FVec F S3x524288x128 .f32 := broadcastInDim S3x524288x128 ![] bcast_S_S3x524288x128 main_cst
  let main_v2 : IVec S3x524288x128 1 := cmpf .olt main_v0 main_v1
  let main_c : IVec S_ 1 := constantI S_ 1 1#1
  let main_v3 : IVec S_ 1 := (fun x v => Host.reduce IntOp.andi x v reducesTo_S3x524288x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S3x524288x128 : Shape := ⟨3, ![3, 524288, 128]⟩
abbrev S128x128 : Shape := ⟨2, ![128, 128]⟩
abbrev S128 : Shape := ⟨1, ![128]⟩
abbrev S3x4096x128 : Shape := ⟨3, ![3, 4096, 128]⟩
abbrev S1x4096x128 : Shape := ⟨3, ![1, 4096, 128]⟩
abbrev S4096x128 : Shape := ⟨2, ![4096, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S3x524288x128, .f32⟩
  | .hbm, ⟨1, _⟩ => ⟨S128x128, .f32⟩
  | .hbm, ⟨2, _⟩ => ⟨S128, .f32⟩
  | .hbm, ⟨3, _⟩ => ⟨S3x524288x128, .f32⟩
  | .local _ .vmem, ⟨0, _⟩ => ⟨S3x4096x128, .f32⟩
  | .local _ .vmem, ⟨1, _⟩ => ⟨S3x4096x128, .f32⟩
  | .local _ .vmem, ⟨2, _⟩ => ⟨S128x128, .f32⟩
  | .local _ .vmem, ⟨3, _⟩ => ⟨S128, .f32⟩
  | .local _ .vmem, ⟨4, _⟩ => ⟨S3x4096x128, .f32⟩
  | .local _ .vmem, ⟨5, _⟩ => ⟨S3x4096x128, .f32⟩
  | _, _ => ⟨S3x524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S3x4096x128_S1x4096x128_0_0_0 : ∀ a, (![0, 0, 0] : Fin 3 → Nat) a + S1x4096x128.size a ≤ S3x4096x128.size a
  h_S1x4096x128 : 0 < S1x4096x128.numel
  shapeCasts_S1x4096x128_S4096x128 : S1x4096x128.ShapeCasts S4096x128
  inb_S3x4096x128_S1x4096x128_1_0_0 : ∀ a, (![1, 0, 0] : Fin 3 → Nat) a + S1x4096x128.size a ≤ S3x4096x128.size a
  inb_S3x4096x128_S1x4096x128_2_0_0 : ∀ a, (![2, 0, 0] : Fin 3 → Nat) a + S1x4096x128.size a ≤ S3x4096x128.size a
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S1x4096x128 : S4096x128.ShapeCasts S1x4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096x128.size a ≤ S3x524288x128.size a
  hwx0_0 : ∀ i : grid0.Coords, EltTy.bits .f32 = 32 ∨ (Rect.block (s := S3x524288x128) S3x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4096x128.size a ≤ S3x524288x128.size a
  hwx0_3 : ∀ i : grid0.Coords, EltTy.bits .f32 = 32 ∨ (Rect.block (s := S3x524288x128) S3x4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S3x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x524288x128 : Shape := ⟨3, ![3, 524288, 128]⟩
abbrev S128x128 : Shape := ⟨2, ![128, 128]⟩
abbrev S128 : Shape := ⟨1, ![128]⟩
abbrev S_ : Shape := ⟨0, ![]⟩
abbrev S524288x128 : Shape := ⟨2, ![524288, 128]⟩
abbrev S1x524288x128 : Shape := ⟨3, ![1, 524288, 128]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S3x524288x128, .f32⟩
  | .hbm, ⟨1, _⟩ => ⟨S128x128, .f32⟩
  | .hbm, ⟨2, _⟩ => ⟨S128, .f32⟩
  | .hbm, ⟨3, _⟩ => ⟨S_, .f32⟩
  | .hbm, ⟨4, _⟩ => ⟨S524288x128, .f32⟩
  | .hbm, ⟨5, _⟩ => ⟨S1x524288x128, .f32⟩
  | .hbm, ⟨6, _⟩ => ⟨S3x524288x128, .f32⟩
  | .hbm, ⟨7, _⟩ => ⟨S3x524288x128, .f32⟩
  | .hbm, ⟨8, _⟩ => ⟨S_, .f32⟩
  | .hbm, ⟨9, _⟩ => ⟨S3x524288x128, .f32⟩
  | .hbm, ⟨10, _⟩ => ⟨S3x524288x128, .f32⟩
  | .hbm, ⟨11, _⟩ => ⟨S3x524288x128, .f32⟩
  | .hbm, ⟨12, _⟩ => ⟨S1x1x128, .f32⟩
  | .hbm, ⟨13, _⟩ => ⟨S3x524288x128, .f32⟩
  | .hbm, ⟨14, _⟩ => ⟨S3x524288x128, .f32⟩
  | .hbm, ⟨15, _⟩ => ⟨S3x524288x128, .f32⟩
  | _, _ => ⟨S3x524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S3x524288x128_S524288x128_d0 : S3x524288x128.ReducesTo [0] S524288x128
  h_S_ : 0 < S_.numel
  bcast_S524288x128_S1x524288x128_1_2 : S524288x128.BroadcastsInDim S1x524288x128 (![1, 2] : Fin 2 → Fin S1x524288x128.rank)
  bcast_S1x524288x128_S3x524288x128_0_1_2 : S1x524288x128.BroadcastsInDim S3x524288x128 (![0, 1, 2] : Fin 3 → Fin S3x524288x128.rank)
  bcast_S_S3x524288x128 : S_.BroadcastsInDim S3x524288x128 (![] : Fin 0 → Fin S3x524288x128.rank)
  bcast_S128_S1x1x128_2 : S128.BroadcastsInDim S1x1x128 (![2] : Fin 1 → Fin S1x1x128.rank)
  bcast_S1x1x128_S3x524288x128_0_1_2 : S1x1x128.BroadcastsInDim S3x524288x128 (![0, 1, 2] : Fin 3 → Fin S3x524288x128.rank)
  dot_S3x524288x128_S128x128_S3x524288x128_2_0_01_1_n_n_wf : DotDims.WF S3x524288x128 S128x128 S3x524288x128 [2] [0] [0, 1] [1] [] []

variable [Facts₀]

def dot_S3x524288x128_S128x128_S3x524288x128_2_0_01_1_n_n : DotDims S3x524288x128 S128x128 S3x524288x128 where
  lhsContracting := [2]
  rhsContracting := [0]
  lhsNonContracting := [0, 1]
  rhsNonContracting := [1]
  lhsBatch := []
  rhsBatch := []
  wf := dot_S3x524288x128_S128x128_S3x524288x128_2_0_01_1_n_n_wf

class Facts : Prop extends Facts₀ where

variable [Facts]
-- ==== Proof.MeanOthers.lean ====
/-
  Message passing over three agents with a mean over the OTHER two. For one row of the batch, with
  the three agents' feature vectors `x 0`, `x 1`, `x 2` (128 features each), a dense map `W` (128 × 128)
  and a bias `b`, agent `a`'s new feature `e` is

      x a e + ( Σ_k ((x 0 k + x 1 k + x 2 k) - x a k) · ½ · W k e  +  b e ).

  The sum of all three minus one's own, halved, is the mean of the other two; the sum over `k` is the dense
  map applied to that mean; the leading `x a e` is the residual connection. Everything is read on the extended
  reals, where `+` is commutative and associative and the product with the real `½` is the quotient by the real
  `2` at every argument, the infinities included, so no finiteness of the inputs is used anywhere.

  This module states that row function (`rowOut`), the two array-level functions it induces on a whole array of
  524288 rows and on a tile of 4096 rows (`arrOut`, `tileOut`), the two float patterns involved as the reals they
  denote, and the one law that joins the two ways of writing the mean: the quotient by `2` of a sum that starts
  from `0` against the product with `½` of the three terms added in turn.
-/
import Idealize.ShloMosaic.PureOps.Ideal
import Idealize.ShloMosaic.PureOps.Ideal.Laws
import Idealize.ShloMosaic.Lib.ValueIdx

noncomputable section

namespace Cert.MeanOthers

open Idealize.ShloMosaic Idealize.ShloMosaic.ValueIdx

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- One row: agent `a`'s new feature `e` from the three agents' feature vectors of that row. -/
def rowOut (x : Fin 3 → Fin 128 → EReal) (W : Fin 128 → Fin 128 → EReal) (b : Fin 128 → EReal)
    (a : Fin 3) (e : Fin 128) : EReal :=
  x a e + ((∑ k : Fin 128, (((x 0 k + x 1 k) + x 2 k) - x a k) * ((1 / 2 : ℝ) : EReal) * W k e) + b e)

/-- The same row with the mean written as a quotient by `2` of a sum over the agents that starts from `0`. -/
theorem rowOut_of_quotient (x : Fin 3 → Fin 128 → EReal) (W : Fin 128 → Fin 128 → EReal) (b : Fin 128 → EReal)
    (a : Fin 3) (e : Fin 128) :
    x a e + ((∑ k : Fin 128, Ideal.div ((0 + ∑ a' : Fin 3, x a' k) - x a k) ((2 : ℝ) : EReal) * W k e) + b e)
      = rowOut x W b a e := by
  unfold rowOut
  refine congrArg (x a e + ·) (congrArg (· + b e) (Finset.sum_congr rfl fun k _ => ?_))
  rw [Ideal.div_coe (by norm_num : (2 : ℝ) ≠ 0), zero_add, Fin.sum_univ_three]

/-- The whole array: 3 agents × 524288 rows × 128 features. -/
def arrOut (x : (⟨3, ![3, 524288, 128]⟩ : Shape).Idx → EReal) (W : (⟨2, ![128, 128]⟩ : Shape).Idx → EReal)
    (b : (⟨1, ![128]⟩ : Shape).Idx → EReal) : (⟨3, ![3, 524288, 128]⟩ : Shape).Idx → EReal :=
  fun i => rowOut (fun a k => x (ix3 a (i 1) k)) (fun k e => W (ix2 k e)) (fun e => b (ix1 e)) (i 0) (i 2)

/-- A tile of 4096 rows of it. -/
def tileOut (x : (⟨3, ![3, 4096, 128]⟩ : Shape).Idx → EReal) (W : (⟨2, ![128, 128]⟩ : Shape).Idx → EReal)
    (b : (⟨1, ![128]⟩ : Shape).Idx → EReal) : (⟨3, ![3, 4096, 128]⟩ : Shape).Idx → EReal :=
  fun y => rowOut (fun a k => x (ix3 a (y 1) k)) (fun k e => W (ix2 k e)) (fun e => b (ix1 e)) (y 0) (y 2)

/-- A tile is a run of 4096 consecutive rows of the array: if the tile's contents `X` are the array's rows from
    `q · 4096` on, and the map and bias are the same, `tileOut` at a tile index is `arrOut` at the array index it sits
    at. A row's result depends on that row only, so nothing outside the tile is read. -/
theorem tileOut_eq_arrOut (A : (⟨3, ![3, 524288, 128]⟩ : Shape).Idx → EReal) (W : (⟨2, ![128, 128]⟩ : Shape).Idx → EReal)
    (b : (⟨1, ![128]⟩ : Shape).Idx → EReal) (X : (⟨3, ![3, 4096, 128]⟩ : Shape).Idx → EReal)
    (W' : (⟨2, ![128, 128]⟩ : Shape).Idx → EReal) (b' : (⟨1, ![128]⟩ : Shape).Idx → EReal) (q : Nat)
    (hX : ∀ (z : (⟨3, ![3, 4096, 128]⟩ : Shape).Idx) (i : (⟨3, ![3, 524288, 128]⟩ : Shape).Idx),
      (i 0).val = (z 0).val → (i 1).val = q * 4096 + (z 1).val → (i 2).val = (z 2).val → X z = A i)
    (hW : W' = W) (hb : b' = b)
    (y : (⟨3, ![3, 4096, 128]⟩ : Shape).Idx) (i : (⟨3, ![3, 524288, 128]⟩ : Shape).Idx)
    (h0 : (i 0).val = (y 0).val) (h1 : (i 1).val = q * 4096 + (y 1).val) (h2 : (i 2).val = (y 2).val) :
    tileOut X W' b' y = arrOut A W b i := by
  subst hW hb
  unfold tileOut arrOut
  have hx : (fun (a : Fin 3) (k : Fin 128) => X (ix3 a (y 1) k)) = (fun a k => A (ix3 a (i 1) k)) :=
    funext fun a => funext fun k => hX _ _ rfl h1 rfl
  have e0 : (y 0 : Fin 3) = i 0 := Fin.ext h0.symm
  have e2 : (y 2 : Fin 128) = i 2 := Fin.ext h2.symm
  rw [hx]
  exact congr (congrArg _ e0) e2

end Cert.MeanOthers

end
-- ==== Proof.TileValue.lean ====
/-
  What one grid step leaves in the output tile. The tile holds 3 agents × 4096 rows × 128 features; the body
  stores it in three slabs, one per agent. Slab `a` at (row r, feature e) is

      x_a(r, e) + ( Σ_k ((x_0 + x_1 + x_2)(r, k) - x_a(r, k)) · ½ · W(k, e)  +  b(e) ):

  the matrix product into a zero accumulator is a plain sum over the contracted feature `k`, the narrowing of its
  operands to sixteen bits is the identity on the extended reals, the bias enters as one row repeated over the
  4096 rows, and the leading unit axis of a slab is a relabelling. Each slab is therefore the restriction to its
  agent of ONE function of the tile index, `tileOut`, and since the three slabs tile the buffer, the buffer after
  the body is that function.
-/
import proofs.«126707_j60421599920764_1_alg».proof.Proof.Gen.KernelIdeal.Frame
import proofs.«126707_j60421599920764_1_alg».proof.Proof.MeanOthers
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Cert.MeanOthers
open Idealize.ShloMosaic Idealize.ShloMosaic.ValueIdx

/-! ## The matrix product at an index -/

theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096,128] by [128,128] product into the zero accumulator, at (r, e): the sum over the contracted feature. -/
theorem product_apply (l : FVec Ideal S4096x128 .bf16) (w : FVec Ideal S128x128 .bf16) (r : Fin 4096) (e : Fin 128) :
    matmul dot_S4096x128_S128x128_S4096x128_1_0_0_1_n_n none l w (constant (F := Ideal) S4096x128 .f32 0x00000000#32) (ix2 r e)
      = ∑ k : Fin 128, l (ix2 r k) * w (ix2 k e) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r e) ((contrEquiv1 dot_S4096x128_S128x128_S4096x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ix2 r e) ((contrEquiv1 dot_S4096x128_S128x128_S4096x128_1_0_0_1_n_n 128 rfl rfl).symm k) = ix2 k e := funext fun a => Fin.ext (by
    match a with
    | ⟨0, _⟩ => exact (rhs_dot_0 _ _).trans hk
    | ⟨1, _⟩ => exact rhs_dot_1 _ _)
  rw [el, er]

/-! ## One slab at an index -/

/-- The common form of the three slabs: from an agent's own rows `xa`, the three agents' sum `tot`, the map `w` and
    the bias, at (r, e). -/
theorem slab_apply (xa tot : FVec Ideal S4096x128 .f32) (w : FVec Ideal S128x128 .bf16) (bias : Vec Ideal S128 .f32)
    (u : Fin 1) (r : Fin 4096) (e : Fin 128) :
    shapeCast S1x4096x128 (addf xa (addf (matmul dot_S4096x128_S128x128_S4096x128_1_0_0_1_n_n none
        (truncf .bf16 (mulf (subf tot xa) (broadcast S4096x128 (Scalar.ofBits (F := Ideal) .f32 0x3F000000#32))) bitsLt_bf16_f32) w
        (constant (F := Ideal) S4096x128 .f32 0x00000000#32))
        (broadcastTo S4096x128 (shapeCast S1x128 bias shapeCasts_S128_S1x128) broadcasts_S1x128_S4096x128)))
      shapeCasts_S4096x128_S1x4096x128 (ix3 u r e)
    = xa (ix2 r e) + ((∑ k : Fin 128, (tot (ix2 r k) - xa (ix2 r k)) * ((1 / 2 : ℝ) : EReal) * w (ix2 k e)) + bias (ix1 e)) := by
  rw [shapeCast_ab_1ab_apply, addf_apply, addf_apply, product_apply, broadcastTo_1b_ab_apply, shapeCast_a_1a_apply]
  show xa (ix2 r e) + ((∑ k : Fin 128, (tot (ix2 r k) - xa (ix2 r k)) * Ideal.ofBits .f32 0x3F000000#32 * w (ix2 k e)) + bias (ix1 e)) = _
  rw [ofBits_half]

theorem own0_apply (v0 : Vec Ideal S1x4096x128 .f32) (r : Fin 4096) (k : Fin 128) : k0_pay2 v0 (ix2 r k) = v0 (ix3 (0 : Fin 1) r k) :=
  shapeCast_1ab_ab_apply v0 shapeCasts_S1x4096x128_S4096x128 r k
theorem own1_apply (v2 : Vec Ideal S1x4096x128 .f32) (r : Fin 4096) (k : Fin 128) : k0_pay3 v2 (ix2 r k) = v2 (ix3 (0 : Fin 1) r k) :=
  shapeCast_1ab_ab_apply v2 shapeCasts_S1x4096x128_S4096x128 r k
theorem own2_apply (v4 : Vec Ideal S1x4096x128 .f32) (r : Fin 4096) (k : Fin 128) : k0_pay4 v4 (ix2 r k) = v4 (ix3 (0 : Fin 1) r k) :=
  shapeCast_1ab_ab_apply v4 shapeCasts_S1x4096x128_S4096x128 r k
theorem total_apply (v0 v2 v4 : Vec Ideal S1x4096x128 .f32) (r : Fin 4096) (k : Fin 128) :
    k0_pay5 v0 v2 v4 (ix2 r k) = (v0 (ix3 (0 : Fin 1) r k) + v2 (ix3 (0 : Fin 1) r k)) + v4 (ix3 (0 : Fin 1) r k) := by
  show (k0_pay2 v0 (ix2 r k) + k0_pay3 v2 (ix2 r k)) + k0_pay4 v4 (ix2 r k) = _
  rw [own0_apply, own1_apply, own2_apply]
theorem map_apply (v8 : Vec Ideal S128x128 .f32) (j : S128x128.Idx) : k0_pay6 v8 j = v8 j := rfl

/-- Agent 0's slab. -/
theorem slab0_apply (v0 v2 v4 : Vec Ideal S1x4096x128 .f32) (v8 : Vec Ideal S128x128 .f32) (v10 : Vec Ideal S128 .f32)
    (u : Fin 1) (r : Fin 4096) (e : Fin 128) :
    k0_pay7 v0 v2 v4 v8 v10 (ix3 u r e)
      = v0 (ix3 (0 : Fin 1) r e) + ((∑ k : Fin 128, (((v0 (ix3 (0 : Fin 1) r k) + v2 (ix3 (0 : Fin 1) r k)) + v4 (ix3 (0 : Fin 1) r k)) - v0 (ix3 (0 : Fin 1) r k))
          * ((1 / 2 : ℝ) : EReal) * v8 (ix2 k e)) + v10 (ix1 e)) := by
  refine (slab_apply (k0_pay2 v0) (k0_pay5 v0 v2 v4) (k0_pay6 v8) v10 u r e).trans ?_
  simp only [own0_apply, total_apply, map_apply]

/-- Agent 1's slab. -/
theorem slab1_apply (v0 v2 v4 : Vec Ideal S1x4096x128 .f32) (v8 : Vec Ideal S128x128 .f32) (v10 : Vec Ideal S128 .f32)
    (u : Fin 1) (r : Fin 4096) (e : Fin 128) :
    k0_pay8 v0 v2 v4 v8 v10 (ix3 u r e)
      = v2 (ix3 (0 : Fin 1) r e) + ((∑ k : Fin 128, (((v0 (ix3 (0 : Fin 1) r k) + v2 (ix3 (0 : Fin 1) r k)) + v4 (ix3 (0 : Fin 1) r k)) - v2 (ix3 (0 : Fin 1) r k))
          * ((1 / 2 : ℝ) : EReal) * v8 (ix2 k e)) + v10 (ix1 e)) := by
  refine (slab_apply (k0_pay3 v2) (k0_pay5 v0 v2 v4) (k0_pay6 v8) v10 u r e).trans ?_
  simp only [own1_apply, total_apply, map_apply]

/-- Agent 2's slab, which the body writes from the sum and the map it kept. -/
theorem slab2_apply (v0 v2 v4 : Vec Ideal S1x4096x128 .f32) (v8 : Vec Ideal S128x128 .f32) (v10 : Vec Ideal S128 .f32)
    (u : Fin 1) (r : Fin 4096) (e : Fin 128) :
    k0_pay1 (k0_pay4 v4) (k0_pay5 v0 v2 v4) (k0_pay6 v8) v10 (ix3 u r e)
      = v4 (ix3 (0 : Fin 1) r e) + ((∑ k : Fin 128, (((v0 (ix3 (0 : Fin 1) r k) + v2 (ix3 (0 : Fin 1) r k)) + v4 (ix3 (0 : Fin 1) r k)) - v4 (ix3 (0 : Fin 1) r k))
          * ((1 / 2 : ℝ) : EReal) * v8 (ix2 k e)) + v10 (ix1 e)) := by
  refine (slab_apply (k0_pay4 v4) (k0_pay5 v0 v2 v4) (k0_pay6 v8) v10 u r e).trans ?_
  simp only [own2_apply, total_apply, map_apply]

/-! ## The slabs' places in the tile -/

/-- Slab `a`'s index (u, r, e) sits at (a, r, e) of the tile. -/
theorem slab_place (a : Nat) (ha : a < 3) (inb : ∀ d, (![a, 0, 0] : Fin 3 → Nat) d + S1x4096x128.size d ≤ S3x4096x128.size d)
    (u : Fin 1) (r : Fin 4096) (e : Fin 128) :
    (Rect.unit (s := S3x4096x128) ![a, 0, 0] S1x4096x128.size inb).emb (ix3 u r e) = ix3 (⟨a, ha⟩ : Fin 3) r e := by
  funext d; apply Fin.ext
  match d with
  | ⟨0, _⟩ => show a + 1 * u.val = a; omega
  | ⟨1, _⟩ => show 0 + 1 * r.val = r.val; omega
  | ⟨2, _⟩ => show 0 + 1 * e.val = e.val; omega

theorem zeros2 : (![0, 0] : Fin 2 → Nat) = fun _ => 0 := funext fun a => by fin_cases a <;> rfl
theorem zeros1 : (![0] : Fin 1 → Nat) = fun _ => 0 := funext fun a => by fin_cases a; rfl

/-! ## The tile after the body -/

/-- Each slab is `tileOut` of the loaded tile, map and bias, restricted to its agent. -/
theorem slab0_eq (X : Vec Ideal S3x4096x128 .f32) (W : Vec Ideal S128x128 .f32) (b : Vec Ideal S128 .f32) (x : S1x4096x128.Idx) :
    k0_pay7 (View.ld X r0_0) (View.ld X r0_1) (View.ld X r0_2) (View.ld W r0_3) (View.ld b r0_4) x = tileOut X W b (r0_0.emb x) := by
  obtain ⟨u, r, e, rfl⟩ : ∃ (u : Fin 1) (r : Fin 4096) (e : Fin 128), x = ix3 u r e := ⟨x 0, x 1, x 2, eq_ix3 x⟩
  rw [slab0_apply, View.ld_unit_zero (S := S128x128) zeros2, View.ld_unit_zero (S := S128) zeros1, slab_place 0 (by decide)]
  show X (r0_0.emb (ix3 0 r e)) + ((∑ k : Fin 128, (((X (r0_0.emb (ix3 0 r k)) + X (r0_1.emb (ix3 0 r k))) + X (r0_2.emb (ix3 0 r k))) - X (r0_0.emb (ix3 0 r k))) * ((1 / 2 : ℝ) : EReal) * W (ix2 k e)) + b (ix1 e)) = _
  simp only [slab_place 0 (by decide), slab_place 1 (by decide), slab_place 2 (by decide)]
  rfl

theorem slab1_eq (X : Vec Ideal S3x4096x128 .f32) (W : Vec Ideal S128x128 .f32) (b : Vec Ideal S128 .f32) (x : S1x4096x128.Idx) :
    k0_pay8 (View.ld X r0_0) (View.ld X r0_1) (View.ld X r0_2) (View.ld W r0_3) (View.ld b r0_4) x = tileOut X W b (r0_1.emb x) := by
  obtain ⟨u, r, e, rfl⟩ : ∃ (u : Fin 1) (r : Fin 4096) (e : Fin 128), x = ix3 u r e := ⟨x 0, x 1, x 2, eq_ix3 x⟩
  rw [slab1_apply, View.ld_unit_zero (S := S128x128) zeros2, View.ld_unit_zero (S := S128) zeros1, slab_place 1 (by decide)]
  show X (r0_1.emb (ix3 0 r e)) + ((∑ k : Fin 128, (((X (r0_0.emb (ix3 0 r k)) + X (r0_1.emb (ix3 0 r k))) + X (r0_2.emb (ix3 0 r k))) - X (r0_1.emb (ix3 0 r k))) * ((1 / 2 : ℝ) : EReal) * W (ix2 k e)) + b (ix1 e)) = _
  simp only [slab_place 0 (by decide), slab_place 1 (by decide), slab_place 2 (by decide)]
  rfl

theorem slab2_eq (X : Vec Ideal S3x4096x128 .f32) (W : Vec Ideal S128x128 .f32) (b : Vec Ideal S128 .f32) (x : S1x4096x128.Idx) :
    k0_pay1 (k0_pay4 (View.ld X r0_2)) (k0_pay5 (View.ld X r0_0) (View.ld X r0_1) (View.ld X r0_2)) (k0_pay6 (View.ld W r0_3)) (View.ld b r0_4) x
      = tileOut X W b (r0_2.emb x) := by
  obtain ⟨u, r, e, rfl⟩ : ∃ (u : Fin 1) (r : Fin 4096) (e : Fin 128), x = ix3 u r e := ⟨x 0, x 1, x 2, eq_ix3 x⟩
  rw [slab2_apply, View.ld_unit_zero (S := S128x128) zeros2, View.ld_unit_zero (S := S128) zeros1, slab_place 2 (by decide)]
  show X (r0_2.emb (ix3 0 r e)) + ((∑ k : Fin 128, (((X (r0_0.emb (ix3 0 r k)) + X (r0_1.emb (ix3 0 r k))) + X (r0_2.emb (ix3 0 r k))) - X (r0_2.emb (ix3 0 r k))) * ((1 / 2 : ℝ) : EReal) * W (ix2 k e)) + b (ix1 e)) = _
  simp only [slab_place 0 (by decide), slab_place 1 (by decide), slab_place 2 (by decide)]
  rfl

/-- The output tile after the body is `tileOut` of the three loaded blocks: the three slabs tile it. -/
theorem tile_eq (X : Vec Ideal S3x4096x128 .f32) (W : Vec Ideal S128x128 .f32) (b : Vec Ideal S128 .f32) :
    out0_3 X W b = tileOut X W b := by
  funext y
  unfold out0_3
  refine View.canon_apply_of_pieces (tileOut X W b) _ ?_ y (cover0_3 (F := Ideal) _ _ _ y)
  intro p hp
  simp only [List.mem_cons, List.mem_nil_iff, or_false] at hp
  rcases hp with rfl | rfl | rfl
  · exact fun x => slab2_eq X W b x
  · exact fun x => slab1_eq X W b x
  · exact fun x => slab0_eq X W b x

end Cert.KernelIdeal.TileValue

end
-- ==== Proof.ArrayValue.lean ====
/-
  From tiles to the array. The grid has 128 steps; step `t` reads rows `4096·t … 4096·t + 4095` of the three
  agents' states (all three agents, all 128 features), the whole map and the whole bias, and writes back the same rows
  of the result. What it writes is `tileOut` of what it read (the tile module), and a row's result depends on that
  row alone, so step `t`'s tile is rows `4096·t …` of ONE array function, `arrOut` of the three argument arrays. The
  128 tiles cover every row (row `r` is in tile `r / 4096`), so after the run the result array is `arrOut` of the
  arguments, and the arguments are as they were.
-/
import proofs.«126707_j60421599920764_1_alg».proof.Proof.Gen.KernelIdeal.Value
import proofs.«126707_j60421599920764_1_alg».proof.Proof.TileValue

noncomputable section

namespace Cert.KernelIdeal.ArrayValue

open Cert.KernelIdeal Cert.KernelIdeal.Gen Cert.KernelIdeal.Value Cert.KernelIdeal.TileValue Cert.MeanOthers
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block sits at step `t`: the states' and the result's at the same run of rows, over all
    agents and features; the map's and the bias's always the whole. -/
theorem block_facts : ∀ t : Fin cfg0.N,
    win0_0.index t (0 : Fin 3) = 0 ∧ win0_0.index t (1 : Fin 3) = win0_3.index t (1 : Fin 3) ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (2 : Fin 3) = 0 ∧ win0_3.index t (1 : Fin 3) ≤ 127 :=
  (by decide +kernel : ∀ t : Fin grid0.N, _)

/-- Every run of 4096 rows is some step's. -/
theorem block_onto : ∀ q : Fin 128, ∃ t : Fin cfg0.N, win0_3.index t = ![0, q.val, 0] :=
  (by decide +kernel : ∀ q : Fin 128, ∃ t : Fin grid0.N, win0_3.index t = ![0, q.val, 0])

/-- What step `t` writes back is its rows of `arrOut` of the argument arrays. -/
theorem flushed_eq (c : Dev nD) (t : Fin cfg0.N) :
    (dats m 0 c).flushed 3 t
      = ((cfg0.win 3).blk t).view.read (Elt Ideal) (arrOut (V m c main_arg0) (V m c main_arg1) (V m c main_arg2)) := by
  rw [flushed3, tile_eq (iblk m c 0 t) (iblk m c 1 t) (iblk m c 2 t)]
  obtain ⟨a0, a1, a2, w0, w1, b0, o0, o2, o1⟩ := block_facts t
  funext j
  show tileOut (iblk m c 0 t) (iblk m c 1 t) (iblk m c 2 t) j
    = arrOut (V m c main_arg0) (V m c main_arg1) (V m c main_arg2) (((cfg0.win 3).blk t).view.emb j)
  refine tileOut_eq_arrOut (V m c main_arg0) (V m c main_arg1) (V m c main_arg2) (iblk m c 0 t) (iblk m c 1 t) (iblk m c 2 t)
    (win0_3.index t (1 : Fin 3)) ?_ ?_ ?_ j _ ?_ ?_ ?_
  · intro z i h0 h1 h2
    show V m c main_arg0 (((cfg0.win 0).blk t).view.emb z) = V m c main_arg0 i
    refine congrArg _ (funext fun d => Fin.ext ?_)
    match d with
    | ⟨0, _⟩ => show win0_0.index t (0 : Fin 3) * 3 + 1 * (z 0).val = (i 0).val; omega
    | ⟨1, _⟩ => show win0_0.index t (1 : Fin 3) * 4096 + 1 * (z 1).val = (i 1).val; omega
    | ⟨2, _⟩ => show win0_0.index t (2 : Fin 3) * 128 + 1 * (z 2).val = (i 2).val; omega
  · funext z
    show V m c main_arg1 (((cfg0.win 1).blk t).view.emb z) = V m c main_arg1 z
    refine congrArg _ (funext fun d => Fin.ext ?_)
    match d with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V m c main_arg2 (((cfg0.win 2).blk t).view.emb z) = V m c main_arg2 z
    refine congrArg _ (funext fun d => Fin.ext ?_)
    match d with
    | ⟨0, _⟩ => show win0_2.index t (0 : Fin 1) * 128 + 1 * (z 0).val = (z 0).val; omega
  · show win0_3.index t (0 : Fin 3) * 3 + 1 * (j 0).val = (j 0).val; omega
  · show win0_3.index t (1 : Fin 3) * 4096 + 1 * (j 1).val = win0_3.index t (1 : Fin 3) * 4096 + (j 1).val; omega
  · show win0_3.index t (2 : Fin 3) * 128 + 1 * (j 2).val = (j 2).val; omega

/-- An index of the array is in step `t`'s tile iff each coordinate is in the tile's range on its axis. -/
theorem mem_blk (t : Fin cfg0.N) (i : S3x524288x128.Idx) :
    i ∈ ((cfg0.win 3).blk t).view.set ↔ ∀ a : Fin 3, win0_3.index t a * S3x4096x128.size a ≤ (i a).val ∧ (i a).val < win0_3.index t a * S3x4096x128.size a + S3x4096x128.size a := by
  show i ∈ ((View.whole main_v0).slice (win0_3.rect t)).set ↔ _
  rw [View.set_slice_whole, Rect.mem_set_unit]
  exact Iff.rfl

/-- Every index of the result is in some step's tile: row `r` in that of step `r / 4096`. -/
theorem cover (i : S3x524288x128.Idx) :
    ∃ t : Fin cfg0.N, (cfg0.win 3).flush t = true ∧ i ∈ ((cfg0.win 3).blk t).view.set := by
  have hi0 : (i 0).val < 3 := (i 0).isLt
  have hi1 : (i 1).val < 524288 := (i 1).isLt
  have hi2 : (i 2).val < 128 := (i 2).isLt
  obtain ⟨t, ht⟩ := block_onto ⟨(i 1).val / 4096, by omega⟩
  have q0 : win0_3.index t (0 : Fin 3) = 0 := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- The result array after the run. -/
theorem final (c : Dev nD) :
    (dats m 0 c).arrAt 3 cfg0.N
      = arrOut (m ((c : Thread nD τ).loc main_arg0)) (m ((c : Thread nD τ).loc main_arg1)) (m ((c : Thread nD τ).loc main_arg2)) :=
  (dats m 0 c).arrAt_eq_of_cover 3 (arrOut (V m c main_arg0) (V m c main_arg1) (V m c main_arg2))
    (fun t _ => flushed_eq m c t) cover

/-- Every weakly fair execution ends with the result at `arrOut` of the arguments and the arguments unchanged. -/
theorem run : θ_run defs (onTc (τ := τ) (main (F := Ideal))) ⟨m, fun _ => 0, ρ⟩ fun r => ∀ c : Dev nD,
      r.2.mem ((c : Thread nD τ).loc main_v0)
        = arrOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.RefValue.lean ====
/-
  The reference, read index by index. Its result at (a, r, e) is the input there plus the dense map's output plus
  the bias: the dense map contracts feature `k` of `(Σ_a' x(a', r, k) - x(a, r, k)) / 2` with `W(k, e)`, the sum over
  the agents starting from the constant `0` and the divisor being the constant `2` broadcast over the array. Each
  operation is read at an index from the one before it; what is left is the row function `rowOut` written with the
  quotient, which `rowOut_of_quotient` identifies with the product form.
-/
import proofs.«126707_j60421599920764_1_alg».proof.Proof.Gen.ReferenceIdeal.Read
import proofs.«126707_j60421599920764_1_alg».proof.Proof.MeanOthers

noncomputable section

namespace Cert.ReferenceIdeal.RefValue

open Cert.ReferenceIdeal Cert.ReferenceIdeal.Gen Cert.ReferenceIdeal.Read Cert.MeanOthers
open Idealize.ShloMosaic Idealize.ShloMosaic.ValueIdx

/-- The reference's last stage is the array function `arrOut` of its three arguments. -/
theorem result_eq (x : (⟨S3x524288x128, .f32⟩ : BufTy).Contents (Elt Ideal)) (W : (⟨S128x128, .f32⟩ : BufTy).Contents (Elt Ideal))
    (b : (⟨S128, .f32⟩ : BufTy).Contents (Elt Ideal)) :
    val_main_v10 (F := Ideal) x W b = arrOut x W b := by
  funext i
  obtain ⟨a, r, e, rfl⟩ : ∃ (a : Fin 3) (r : Fin 524288) (e : Fin 128), i = ix3 a r e := ⟨i 0, i 1, i 2, eq_ix3 i⟩
  have hb : idx_main_v7 (idx_main_v8 (ix3 a r e)) = ix1 e :=
    funext fun d => Fin.ext (by match d with | ⟨0, _⟩ => rfl)
  have hr : ∀ k : Fin 128, ridx_main_v6 (ix3 a r e) k = ix2 k e := fun k =>
    funext fun d => Fin.ext (by match d with | ⟨0, _⟩ => rfl | ⟨1, _⟩ => rfl)
  have hl : ∀ k : Fin 128, lidx_main_v6 (ix3 a r e) k = ix3 a r k := fun k =>
    funext fun d => Fin.ext (by match d with | ⟨0, _⟩ => rfl | ⟨1, _⟩ => rfl | ⟨2, _⟩ => rfl)
  have hs : ∀ (k : Fin 128) (a' : Fin 3), idx_main_v0 (idx_main_v1 (idx_main_v2 (ix3 a r k))) a' = ix3 a' r k := fun k a' =>
    funext fun d => Fin.ext (by match d with | ⟨0, _⟩ => rfl | ⟨1, _⟩ => rfl | ⟨2, _⟩ => rfl)
  rw [val_main_v10_apply, val_main_v9_apply, val_main_v6_apply, val_main_v8_apply, val_main_v7_apply, hb]
  show _ = rowOut (fun a k => x (ix3 a r k)) (fun k e => W (ix2 k e)) (fun e => b (ix1 e)) a e
  rw [← rowOut_of_quotient]
  simp only [Ideal.addf_def]
  refine congrArg (x (ix3 a r e) + ·) (congrArg (· + b (ix1 e)) (Finset.sum_congr rfl fun k _ => ?_))
  rw [val_main_v5_apply, val_main_v4_apply, val_main_cst_0_apply, val_main_v3_apply, val_main_v2_apply,
    val_main_v1_apply, val_main_v0_apply, val_main_cst_apply, hr, hl]
  simp only [Ideal.hostDivf_def, Ideal.subf_def, Ideal.ofBits_def, Ideal.ofBits_zero_f32, ofBits_two, hs]

end Cert.ReferenceIdeal.RefValue

end
-- ==== Proof.lean ====
/-
  Neighbour-mean message passing over three agents, kernel against reference, on the extended reals.

  For states `x` (3 agents × 524288 rows × 128 features), a dense map `W` (128 × 128) and a bias `b`, both programs
  return, at agent `a`, row `r`, feature `e`,

      x(a,r,e) + ( Σ_k ((x(0,r,k) + x(1,r,k) + x(2,r,k)) - x(a,r,k)) · ½ · W(k,e)  +  b(e) ).

  The kernel walks the rows in 128 tiles of 4096, adds the three agents' tiles, subtracts each agent's own, halves by
  a product with `½`, multiplies by `W` on the matrix unit (operands narrowed to sixteen bits, which changes nothing
  on the extended reals) into a zero accumulator, adds the bias row and the residual. The reference sums over the
  agent axis from `0`, subtracts, divides by `2`, contracts with `W`, adds the broadcast bias and the input. The two
  differ in how the three terms are added (a chain against a sum from zero), in `· ½` against `/ 2` (equal at every
  extended real, the infinities included) and in the tiling (a row's result reads that row only). No step uses that
  the inputs are finite.

  Proof/MeanOthers.lean states the function and the law between the two spellings of the mean; Proof/RefValue.lean
  reads the reference's operations at an index down to it; Proof/TileValue.lean shows one grid step leaves the
  function's values on its tile; Proof/ArrayValue.lean puts the 128 tiles together. The three frames are the
  kernel's two frame runs and the reference's run with its result dropped; nothing was rewritten in idealizing the
  kernel, so there is nothing to preserve.
-/
import proofs.«126707_j60421599920764_1_alg».proof.Defs
import proofs.«126707_j60421599920764_1_alg».proof.Proof.Gen.Kernel
import proofs.«126707_j60421599920764_1_alg».proof.Proof.Gen.Kernel.Skeleton
import proofs.«126707_j60421599920764_1_alg».proof.Proof.Gen.Kernel.Launch
import proofs.«126707_j60421599920764_1_alg».proof.Proof.Gen.Kernel.Points
import proofs.«126707_j60421599920764_1_alg».proof.Proof.Gen.Kernel.Frame
import proofs.«126707_j60421599920764_1_alg».proof.Proof.Gen.KernelIdeal
import proofs.«126707_j60421599920764_1_alg».proof.Proof.Gen.KernelIdeal.Skeleton
import proofs.«126707_j60421599920764_1_alg».proof.Proof.Gen.KernelIdeal.Launch
import proofs.«126707_j60421599920764_1_alg».proof.Proof.Gen.KernelIdeal.Points
import proofs.«126707_j60421599920764_1_alg».proof.Proof.Gen.KernelIdeal.Frame
import proofs.«126707_j60421599920764_1_alg».proof.Proof.Gen.ReferenceIdeal
import proofs.«126707_j60421599920764_1_alg».proof.Proof.Gen.Pre_finite_inputs
import proofs.«126707_j60421599920764_1_alg».proof.Proof.Gen.KernelIdeal.Value
import proofs.«126707_j60421599920764_1_alg».proof.Proof.Gen.ReferenceIdeal.Run
import proofs.«126707_j60421599920764_1_alg».proof.Proof.Gen.ReferenceIdeal.Read
import proofs.«126707_j60421599920764_1_alg».proof.Proof.ArrayValue
import proofs.«126707_j60421599920764_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing rewrote no operation. -/
theorem preserves : Cert.preserves_Kernel_KernelIdeal := trivial

/-- From memories that agree on the three arguments both programs end with the result at `arrOut` of them: the
    kernel by its 128 tiles, the reference by its operations read at an index. -/
theorem algebraic : Cert.algebraic_KernelIdeal_ReferenceIdeal := by
  intro m ρ m' ρ' _ hagree
  refine ⟨fun c => Cert.MeanOthers.arrOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
